-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2000000x16 : Shape := ⟨3, ![1, 2000000, 16]⟩
abbrev S_ : Shape := ⟨0, ![]⟩

class Facts : Prop where
  bcast_S_S1x2000000x16 : S_.BroadcastsInDim S1x2000000x16 (![] : Fin 0 → Fin S1x2000000x16.rank)
  reducesTo_S1x2000000x16_S_d0_1_2 : S1x2000000x16.ReducesTo [0, 1, 2] S_
  h_S_ : 0 < S_.numel

variable [Facts]

def fn {F : FTy → Type} [FloatOps F] (main_arg0 : FVec F S1x2000000x16 .f32) : IVec S_ 1 :=
  let main_v0 : FVec F S1x2000000x16 .f32 := Host.absf main_arg0
  let main_cst : FVec F S_ .f32 := constant S_ .f32 0x7F800000#32
  let main_v1 : FVec F S1x2000000x16 .f32 := broadcastInDim S1x2000000x16 ![] bcast_S_S1x2000000x16 main_cst
  let main_v2 : IVec S1x2000000x16 1 := cmpf .olt main_v0 main_v1
  let main_c : IVec S_ 1 := constantI S_ 1 1#1
  let main_v3 : IVec S_ 1 := (fun x v => Host.reduce IntOp.andi x v reducesTo_S1x2000000x16_S_d0_1_2 h_S_) main_v2 main_c
  main_v3
-- ==== Kernel.lean ====
abbrev S1x2000000x16 : Shape := ⟨3, ![1, 2000000, 16]⟩
abbrev S1x16 : Shape := ⟨2, ![1, 16]⟩
abbrev S1x8000x16 : Shape := ⟨3, ![1, 8000, 16]⟩
abbrev S_ : Shape := ⟨0, ![]⟩
abbrev S1x1x16 : Shape := ⟨3, ![1, 1, 16]⟩

abbrev nBuf : Space → Nat
  | .hbm => 8
  | .vmem => 9
  | .smem => 0
  | _ => 0

abbrev bufTy : (tb : Table) → Fin (tcTables nBuf tb) → BufTy
  | .hbm, ⟨0, _⟩ => ⟨S1x2000000x16, .f32⟩
  | .hbm, ⟨1, _⟩ => ⟨S1x16, .f32⟩
  | .hbm, ⟨2, _⟩ => ⟨S1x16, .f32⟩
  | .hbm, ⟨3, _⟩ => ⟨S_, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x2000000x16, .f32⟩
  | .local _ .vmem, ⟨0, _⟩ => ⟨S1x8000x16, .f32⟩
  | .local _ .vmem, ⟨1, _⟩ => ⟨S1x8000x16, .f32⟩
  | .local _ .vmem, ⟨2, _⟩ => ⟨S1x16, .f32⟩
  | .local _ .vmem, ⟨3, _⟩ => ⟨S1x16, .f32⟩
  | .local _ .vmem, ⟨4, _⟩ => ⟨S1x8000x16, .f32⟩
  | .local _ .vmem, ⟨5, _⟩ => ⟨S1x8000x16, .f32⟩
  | .local _ .vmem, ⟨6, _⟩ => ⟨S1x16, .f32⟩
  | .local _ .vmem, ⟨7, _⟩ => ⟨S1x8000x16, .f32⟩
  | .local _ .vmem, ⟨8, _⟩ => ⟨S1x8000x16, .f32⟩
  | _, _ => ⟨S1x2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x8000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x16_S1x16_0_0 : ∀ a, (![0, 0] : Fin 2 → Nat) a + S1x16.size a ≤ S1x16.size a
  h_S1x16 : 0 < S1x16.numel
  inb_S1x8000x16_S1x8000x16_0_0_0 : ∀ a, (![0, 0, 0] : Fin 3 → Nat) a + S1x8000x16.size a ≤ S1x8000x16.size a
  h_S1x8000x16 : 0 < S1x8000x16.numel
  natLt_1_32 : 1 < 32
  shapeCasts_S1x16_S1x16 : S1x16.ShapeCasts S1x16
  reduces_S1x8000x16_S1x16 : S1x8000x16.Reduces [1] S1x16
  bcast_S_S1x16 : S_.BroadcastsInDim S1x16 (![] : Fin 0 → Fin S1x16.rank)
  shapeCasts_S1x16_S1x1x16 : S1x16.ShapeCasts S1x1x16
  shapeCasts_S1x1x16_S1x1x16 : S1x1x16.ShapeCasts S1x1x16
  broadcasts_S1x1x16_S1x8000x16 : S1x1x16.Broadcasts S1x8000x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8000x16.size a ≤ S1x2000000x16.size a
  hwx0_0 : ∀ i : grid0.Coords, EltTy.bits .f32 = 32 ∨ (Rect.block (s := S1x2000000x16) S1x8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8000x16.size a ≤ S1x2000000x16.size a
  hwx1_0 : ∀ i : grid1.Coords, EltTy.bits .f32 = 32 ∨ (Rect.block (s := S1x2000000x16) S1x8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8000x16.size a ≤ S1x2000000x16.size a
  hwx1_2 : ∀ i : grid1.Coords, EltTy.bits .f32 = 32 ∨ (Rect.block (s := S1x2000000x16) S1x8000x16.size (cc1_transform_2 i) (hinb1_2 i)).WholeWords (EltTy.packing .f32)

variable [Facts₀]

abbrev win0_0 : Pipeline.Window sig grid0 :=
  Pipeline.Window.ofSpec (Memref.whole main_arg0) S1x8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x16.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x8000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x2000000x16 : Shape := ⟨3, ![1, 2000000, 16]⟩
abbrev S_ : Shape := ⟨0, ![]⟩
abbrev S1x16 : Shape := ⟨2, ![1, 16]⟩
abbrev S1x1x16 : Shape := ⟨3, ![1, 1, 16]⟩

abbrev nBuf : Space → Nat
  | .hbm => 18
  | .vmem => 0
  | .smem => 0
  | _ => 0

abbrev bufTy : (tb : Table) → Fin (tcTables nBuf tb) → BufTy
  | .hbm, ⟨0, _⟩ => ⟨S1x2000000x16, .f32⟩
  | .hbm, ⟨1, _⟩ => ⟨S1x2000000x16, .i1⟩
  | .hbm, ⟨2, _⟩ => ⟨S_, .f32⟩
  | .hbm, ⟨3, _⟩ => ⟨S1x2000000x16, .f32⟩
  | .hbm, ⟨4, _⟩ => ⟨S1x2000000x16, .f32⟩
  | .hbm, ⟨5, _⟩ => ⟨S1x2000000x16, .i1⟩
  | .hbm, ⟨6, _⟩ => ⟨S1x2000000x16, .f32⟩
  | .hbm, ⟨7, _⟩ => ⟨S_, .f32⟩
  | .hbm, ⟨8, _⟩ => ⟨S1x16, .f32⟩
  | .hbm, ⟨9, _⟩ => ⟨S_, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S1x1x16, .f32⟩
  | .hbm, ⟨16, _⟩ => ⟨S1x2000000x16, .f32⟩
  | .hbm, ⟨17, _⟩ => ⟨S1x2000000x16, .f32⟩
  | _, _ => ⟨S1x2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call1_v0 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S1x2000000x16 : S_.BroadcastsInDim S1x2000000x16 (![] : Fin 0 → Fin S1x2000000x16.rank)
  reducesTo_S1x2000000x16_S1x16_d1 : S1x2000000x16.ReducesTo [1] S1x16
  h_S_ : 0 < S_.numel
  bcast_S_S1x16 : S_.BroadcastsInDim S1x16 (![] : Fin 0 → Fin S1x16.rank)
  bcast_S1x16_S1x1x16_0_2 : S1x16.BroadcastsInDim S1x1x16 (![0, 2] : Fin 2 → Fin S1x1x16.rank)
  bcast_S1x1x16_S1x2000000x16_0_1_2 : S1x1x16.BroadcastsInDim S1x2000000x16 (![0, 1, 2] : Fin 3 → Fin S1x2000000x16.rank)

variable [Facts₀]

class Facts : Prop extends Facts₀ where

variable [Facts]
-- ==== Proof.SelfCompare.lean ====
/-
  On the extended reals nothing is unordered, so "x is not equal to itself" is false for every x, in its ordered
  spelling (`one`) as in its unordered one (`une`): both read `decide (x ≠ x)`. A NaN test written as a
  self-comparison is therefore the all-zero mask, and a select under it returns its third operand unchanged.
-/
import Idealize.ShloMosaic.PureOps.Ideal
import Idealize.ShloMosaic.PureOps

noncomputable section

namespace Cert.SelfCompare

open Idealize.ShloMosaic

/-- The ordered "not equal" of an extended real with itself is the zero bit. -/
theorem cmp_one_self (x : EReal) : Ideal.cmp .one x x = 0#1 := by
  simp [Ideal.cmp]

/-- The unordered "not equal" of an extended real with itself is the zero bit too: the same test. -/
theorem cmp_une_self (x : EReal) : Ideal.cmp .une x x = 0#1 := by
  simp [Ideal.cmp]

/-- A select whose mask is `x ≠ x` (ordered spelling) picks `x`, its third operand, at every index, whatever the second is. -/
theorem select_one_self (s : Shape) (x a : FVec Ideal s .f32) : select (cmpf .one x x) a x = x := by
  funext i
  show Scalar.select (Ideal.cmp .one (x i) (x i)) (a i) (x i) = x i
  rw [cmp_one_self]
  rfl

/-- The same with the unordered spelling of the mask. -/
theorem select_une_self (s : Shape) (x a : FVec Ideal s .f32) : select (cmpf .une x x) a x = x := by
  funext i
  show Scalar.select (Ideal.cmp .une (x i) (x i)) (a i) (x i) = x i
  rw [cmp_une_self]
  rfl

end Cert.SelfCompare

end
-- ==== Proof.KernelValue.lean ====
/-
  What the kernel's result array holds at the end, over the extended reals: the input array itself.
  The second region's body stores, per block of 8000 rows, `select (x ≠ x) mean x` of the block `x` it loaded; the mask
  is identically zero, so the stored block is the loaded block, whatever the first region and the host quotient put in
  `mean`. The input window and the output window walk the rows with the same index map (block t holds rows
  8000·t … 8000·t + 7999), so point t writes back block t of the input array, and the 250 blocks tile all 2,000,000 rows.
-/
import proofs.«179377_j31645319037206_1_alg».proof.Proof.KernelIdealRun
import proofs.«179377_j31645319037206_1_alg».proof.Proof.SelfCompare
import Idealize.ShloMosaic.Lib.Pipeline.Value

set_option maxRecDepth 16384

noncomputable section

namespace Cert.KernelIdeal.FillValue

open Cert.KernelIdeal Cert.KernelIdeal.Gen
open Idealize.ShloMosaic Idealize.ShloMosaic.TcCoe Idealize.SL.Sem
open Idealize.ShloMosaic.Pipeline (Dat)

/-! ## The stored block is the loaded block -/

/-- The fill body's payload at the extended reals: the mask `x ≠ x` is zero, so the select keeps `x`. -/
theorem payload_eq (x : Vec Ideal S1x8000x16 .f32) (mean : Vec Ideal S1x16 .f32) :
    k1_pay1 (F := Ideal) x mean = x := by
  unfold k1_pay1
  exact Cert.SelfCompare.select_one_self S1x8000x16 x _

/-! ## From blocks to the array, for any contents `V` the second region is entered with -/

section
variable (V : (c : Dev nD) → (b : Ref sig .tc) → Buf (Elt Ideal) ((c : Thread nD τ).loc b))

/-- The input array as the region finds it, at its literal type. -/
abbrev xin (c : Dev nD) : S1x2000000x16.Idx → Elt Ideal .f32 := V c main_arg0

theorem zero_origin : (![0, 0, 0] : Fin 3 → Nat) = fun _ => 0 := funext fun a => by fin_cases a <;> rfl

/-- The index maps, decided over the 250 points: input window 0 and output window 2 sit on the same block, which is
    block `t` along the rows and block 0 along the other two axes. -/
theorem same_block : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_2.index t (0 : Fin 3) = 0 ∧ win1_2.index t (1 : Fin 3) = t.val ∧ win1_2.index t (2 : Fin 3) = 0 :=
  (by decide +kernel : ∀ t : Fin grid1.N, _)

/-- What point `t` writes back is block `t` of the input array. -/
theorem flushed_eq (c : Dev nD) (t : Fin cfg1.N) :
    (dat1 V c).flushed 2 t = ((cfg1.win 2).blk t).view.read (Elt Ideal) (xin V c) := by
  show (cfg1.win 2).cut (grid1.coords t) ((dat1 V c).after 2 t) = _
  rw [after1_2]
  unfold out1_2
  rw [View.canon_unit_zero zero_origin]
  simp only [View.ld_unit_zero (S := S1x8000x16) zero_origin]
  rw [payload_eq]
  obtain ⟨e0, e1, e2, -, -, -⟩ := same_block t
  funext j
  show V c main_arg0 (((cfg1.win 0).blk t).view.emb j) = V c main_arg0 (((cfg1.win 2).blk t).view.emb j)
  have h0 : ((cfg1.win 0).blk t).view.emb j = ((cfg1.win 2).blk t).view.emb j := by
    funext a; apply Fin.ext
    match a with
    | ⟨0, _⟩ => show win1_0.index t (0 : Fin 3) * 1 + 1 * (j 0).val = win1_2.index t (0 : Fin 3) * 1 + 1 * (j 0).val; omega
    | ⟨1, _⟩ => show win1_0.index t (1 : Fin 3) * 8000 + 1 * (j 1).val = win1_2.index t (1 : Fin 3) * 8000 + 1 * (j 1).val; omega
    | ⟨2, _⟩ => show win1_0.index t (2 : Fin 3) * 16 + 1 * (j 2).val = win1_2.index t (2 : Fin 3) * 16 + 1 * (j 2).val; omega
  rw [h0]

/-- An index of the array is in point `t`'s block iff each coordinate is in the block's range on its axis. -/
theorem mem_block (t : Fin cfg1.N) (i : S1x2000000x16.Idx) :
    i ∈ ((cfg1.win 2).blk t).view.set ↔ ∀ a : Fin 3, win1_2.index t a * S1x8000x16.size a ≤ (i a).val ∧ (i a).val < win1_2.index t a * S1x8000x16.size a + S1x8000x16.size a := by
  show i ∈ ((View.whole main_v4).slice (win1_2.rect t)).set ↔ _
  rw [View.set_slice_whole, Rect.mem_set_unit]
  exact Iff.rfl

/-- Row `r` lies in the block of point `r / 8000`, which writes back: the blocks tile the array. -/
theorem tiled (i : S1x2000000x16.Idx) :
    ∃ t : Fin cfg1.N, (cfg1.win 2).flush t = true ∧ i ∈ ((cfg1.win 2).blk t).view.set := by
  have h0 : (i 0).val < 1 := (i 0).isLt
  have h1 : (i 1).val < 2000000 := (i 1).isLt
  have h2 : (i 2).val < 16 := (i 2).isLt
  have hN : (i 1).val / 8000 < cfg1.N := lt_of_lt_of_eq (by omega : (i 1).val / 8000 < 250) N_1.symm
  obtain ⟨-, -, -, q0, q1, q2⟩ := same_block ⟨(i 1).val / 8000, hN⟩
  have q1' : win1_2.index ⟨(i 1).val / 8000, hN⟩ (1 : Fin 3) = (i 1).val / 8000 := q1
  refine ⟨⟨(i 1).val / 8000, hN⟩, flush1_2 _, ?_⟩
  rw [mem_block]
  intro a
  match a with
  | ⟨0, _⟩ => show win1_2.index ⟨(i 1).val / 8000, hN⟩ (0 : Fin 3) * 1 ≤ (i 0).val ∧ (i 0).val < win1_2.index ⟨(i 1).val / 8000, hN⟩ (0 : Fin 3) * 1 + 1; omega
  | ⟨1, _⟩ => show win1_2.index ⟨(i 1).val / 8000, hN⟩ (1 : Fin 3) * 8000 ≤ (i 1).val ∧ (i 1).val < win1_2.index ⟨(i 1).val / 8000, hN⟩ (1 : Fin 3) * 8000 + 8000; omega
  | ⟨2, _⟩ => show win1_2.index ⟨(i 1).val / 8000, hN⟩ (2 : Fin 3) * 16 ≤ (i 2).val ∧ (i 2).val < win1_2.index ⟨(i 1).val / 8000, hN⟩ (2 : Fin 3) * 16 + 16; omega

/-- After all 250 points the result array is the input array as the region found it. -/
theorem result_array (c : Dev nD) : (dat1 V c).arrAt 2 cfg1.N = xin V c :=
  (dat1 V c).arrAt_eq_of_cover 2 (xin V c) (fun t _ => flushed_eq V c t) tiled

end

/-! ## The run -/

variable (m : (ℓ : Loc nD τ sig) → Buf (Elt Ideal) ℓ) (ρ : Dev nD → PrngReg)

/-- Neither the first region nor the host operations between the regions write the input array: the second region
    finds it as launched. -/
theorem input_kept (c : Dev nD) : xin (V2 m ρ) c = m ((c : Thread nD τ).loc main_arg0) :=
  (((W3_arr m ρ c 0).trans (((dat1 (V2 m ρ) c).arrAt_in 0 rfl _).trans (A_eq1 (V2 m ρ) c 0))).symm).trans (W3_main_arg0 m ρ c)

/-- Every weakly fair execution of the idealized kernel terminates, nothing faulting, with the result array equal to the
    input array as launched, and the input array unchanged. -/
theorem run : θ_run defs (onTc (τ := τ) (main (F := Ideal))) ⟨m, fun _ => 0, ρ⟩ (fun r => ∀ c : Dev nD,
      r.2.mem ((c.tc : Thread nD τ).loc main_v4) = m ((c.tc : Thread nD τ).loc main_arg0)
      ∧ r.2.mem ((c.tc : Thread nD τ).loc main_arg0) = m ((c.tc : Thread nD τ).loc main_arg0)) :=
  (θ_run defs _ _).mono (fun r h c => ⟨((h c).1.trans (result_array (V2 m ρ) c)).trans (input_kept m ρ c), (h c).2⟩)
    (Cert.KernelIdeal.Launched.run_named (F := Ideal) m ρ)

end Cert.KernelIdeal.FillValue

end
-- ==== Proof.RefValue.lean ====
/-
  What the reference's result array holds at the end, over the extended reals: the input array itself.
  The reference's result is `select (x ≠ x) mean (select (x ≠ x) 0 x)`, the column means broadcast along the rows; the
  mask `x ≠ x` is identically zero, so the inner select is `x` and then the outer one is `x`, whatever `mean` is.
-/
import proofs.«179377_j31645319037206_1_alg».proof.Defs
import proofs.«179377_j31645319037206_1_alg».proof.Proof.Gen.ReferenceIdeal.Run
import proofs.«179377_j31645319037206_1_alg».proof.Proof.SelfCompare

noncomputable section

namespace Cert.ReferenceIdeal.FillValue

open Cert.ReferenceIdeal Cert.ReferenceIdeal.Gen
open Idealize.ShloMosaic Idealize.ShloMosaic.TcCoe Idealize.SL.Sem

/-- Two selects under the zero mask `x ≠ x`, nested: the result is `x`. -/
theorem nested_select (x fill zeros : FVec Ideal S1x2000000x16 .f32) :
    select (cmpf .une x x) fill (select (cmpf .une x x) zeros x) = x := by
  rw [Cert.SelfCompare.select_une_self S1x2000000x16 x zeros, Cert.SelfCompare.select_une_self S1x2000000x16 x fill]

variable (m : (ℓ : Loc nD τ sig) → Buf (Elt Ideal) ℓ) (ρ : Dev nD → PrngReg)

/-- Every weakly fair execution of the idealized reference terminates, nothing faulting, with the result array equal to
    the input array as launched, and the input array unchanged. -/
theorem run : θ_run defs (onTc (τ := τ) (main (F := Ideal))) ⟨m, fun _ => 0, ρ⟩ (fun r => ∀ c : Dev nD,
      r.2.mem ((c.tc : Thread nD τ).loc main_v10) = m ((c.tc : Thread nD τ).loc main_arg0)
      ∧ r.2.mem ((c.tc : Thread nD τ).loc main_arg0) = m ((c.tc : Thread nD τ).loc main_arg0)) :=
  (θ_run defs _ _).mono (fun r h c => ⟨(h c).1.trans (nested_select _ _ _), (h c).2⟩)
    (Cert.ReferenceIdeal.Value.run (F := Ideal) m ρ)

end Cert.ReferenceIdeal.FillValue

end
-- ==== Proof.lean ====
/-
  The kernel fills the NaNs of a [1, 2000000, 16] array with its per-column mean over the non-NaN rows: a first
  pass accumulates, tile by tile over 250 tiles of 8000 rows, the column sums of `where(x ≠ x, 0, x)` and the counts of
  `¬(x ≠ x)`; the host divides sum by max(count, 1); a second pass stores `where(x ≠ x, mean, x)` tile by tile. The
  reference does the same with whole-array sums and ends in `where(x ≠ x, mean, where(x ≠ x, 0, x))`.

  Over the extended reals no value differs from itself, so the mask `x ≠ x` is zero at every index — in the kernel's
  ordered spelling as in the reference's unordered one (Proof/SelfCompare.lean). Each program's result is then the
  input array itself, and the two means, which differ in how their sums are grouped, are never compared:
    · the kernel: every tile's stored block is its loaded block, the input and output windows walk the rows by one
      index map, and the 250 blocks tile the array (Proof/KernelValue.lean, over the launch of Proof/KernelIdealRun.lean);
    · the reference: two nested selects under the zero mask (Proof/RefValue.lean, over the reference's generated run).
  The equality needs no finiteness: the precondition is never opened. The frames of the two kernel programs are the
  generated ones; the reference's is its run with the result dropped; the idealization rewrote nothing, so
  `preserves` is `True`.
-/
import proofs.«179377_j31645319037206_1_alg».proof.Defs
import proofs.«179377_j31645319037206_1_alg».proof.Proof.Gen.Kernel
import proofs.«179377_j31645319037206_1_alg».proof.Proof.Gen.Kernel.Frame
import proofs.«179377_j31645319037206_1_alg».proof.Proof.Gen.KernelIdeal
import proofs.«179377_j31645319037206_1_alg».proof.Proof.Gen.KernelIdeal.Frame
import proofs.«179377_j31645319037206_1_alg».proof.Proof.Gen.ReferenceIdeal
import proofs.«179377_j31645319037206_1_alg».proof.Proof.Gen.ReferenceIdeal.Run
import proofs.«179377_j31645319037206_1_alg».proof.Proof.Gen.Pre_finite_inputs
import proofs.«179377_j31645319037206_1_alg».proof.Proof.KernelValue
import proofs.«179377_j31645319037206_1_alg».proof.Proof.RefValue
import Idealize.ShloMosaic.Adequacy
import Idealize.ShloMosaic.Init

noncomputable section

namespace Cert.Proof

open Idealize.ShloMosaic Idealize.SL.Sem

namespace NanFill

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array equal to the input array they were launched with; the launch memories
    agree on it. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.FillValue.run m ρ, ?_⟩
  refine (θ_run Cert.ReferenceIdeal.defs _ _).mono (fun _ h c => ⟨(h c).1.trans (hagree c), (h c).2⟩)
    (Cert.ReferenceIdeal.FillValue.run m' ρ')

end NanFill

theorem claim : Cert.Claim :=
  ⟨Cert.Kernel.Gen.facts, Cert.KernelIdeal.Gen.facts, Cert.ReferenceIdeal.Gen.facts, Cert.Pre_finite_inputs.Gen.facts,
    NanFill.frame_k, NanFill.frame_ki, NanFill.frame_ri, NanFill.preserves, NanFill.algebraic⟩

end Cert.Proof

end
